-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x4096 .f32) (main_arg1 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 1 := constantI S_ 1 1#1
  let main_v6 : IVec S_ 1 := (fun x v => Host.reduce IntOp.andi x v reducesTo_S16384_S_d0 h_S_) main_v5 main_c_1
  let main_v7 : IVec S_ 1 := andi main_v3 main_v6
  let main_c_2 : IVec S_ 32 := constantI S_ 32 4096#32
  let main_v8 : IVec S16384 32 := broadcastInDim S16384 ![] bcast_S_S16384 main_c_2
  let main_v9 : IVec S16384 1 := cmpi .slt main_arg1 main_v8
  let main_c_3 : IVec S_ 1 := constantI S_ 1 1#1
  let main_v10 : IVec S_ 1 := (fun x v => Host.reduce IntOp.andi x v reducesTo_S16384_S_d0 h_S_) main_v9 main_c_3
  let main_v11 : IVec S_ 1 := andi main_v7 main_v10
  main_v11
-- ==== Kernel.lean ====
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S512x4096 : Shape := ⟨2, ![512, 4096]⟩
abbrev S512 : Shape := ⟨1, ![512]⟩
abbrev S512x1 : Shape := ⟨2, ![512, 1]⟩

abbrev nBuf : Space → Nat
  | .hbm => 39
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S_, .i32⟩
  | .hbm, ⟨15, _⟩ => ⟨S16384x1, .i32⟩
  | .hbm, ⟨16, _⟩ => ⟨S16384x1, .i32⟩
  | .hbm, ⟨17, _⟩ => ⟨S16384x1, .i32⟩
  | .hbm, ⟨18, _⟩ => ⟨S16384x1x1, .i32⟩
  | .hbm, ⟨19, _⟩ => ⟨S1, .i32⟩
  | .hbm, ⟨20, _⟩ => ⟨S_, .i32⟩
  | .hbm, ⟨21, _⟩ => ⟨S16384x1x1, .i32⟩
  | .hbm, ⟨22, _⟩ => ⟨S16384x1x1, .i1⟩
  | .hbm, ⟨23, _⟩ => ⟨S1x1x1, .i32⟩
  | .hbm, ⟨24, _⟩ => ⟨S16384x1x1, .i32⟩
  | .hbm, ⟨25, _⟩ => ⟨S16384x1x1, .i1⟩
  | .hbm, ⟨26, _⟩ => ⟨S16384x1x1, .i1⟩
  | .hbm, ⟨27, _⟩ => ⟨S_, .i1⟩
  | .hbm, ⟨28, _⟩ => ⟨S16384x1, .i1⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512, .f32⟩
  | .local _ .vmem, ⟨3, _⟩ => ⟨S512, .f32⟩
  | .local _ .vmem, ⟨4, _⟩ => ⟨S512, .f32⟩
  | .local _ .vmem, ⟨5, _⟩ => ⟨S512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_cst_1 : Ref sig .tc := ⟨.hbm, 37, rfl⟩
abbrev main_v6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16384 : S_.BroadcastsInDim S16384 (![] : Fin 0 → Fin S16384.rank)
  shapeCasts_S16384_S16384x1 : S16384.ShapeCasts S16384x1
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  shapeCasts_S16384x1_S16384 : S16384x1.ShapeCasts S16384
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  inb_S512_S512_0 : ∀ a, (![0] : Fin 1 → Nat) a + S512.size a ≤ S512.size a
  h_S512 : 0 < S512.numel
  shapeCasts_S512_S512 : S512.ShapeCasts S512
  shapeCasts_S512x1_S512 : S512x1.ShapeCasts S512
  reducesTo_S16384_S_d0 : S16384.ReducesTo [0] S_
  gather_S16384x4096_S16384x1x1_S16384x1_n_1_0_0_1_2_11_wf : GatherDims.WF S16384x4096 S16384x1x1 S16384x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S16384.size a
  hwx0_1 : ∀ i : grid0.Coords, EltTy.bits .f32 = 32 ∨ (Rect.block (s := S16384) S512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S16384.size a
  hwx0_2 : ∀ i : grid0.Coords, EltTy.bits .f32 = 32 ∨ (Rect.block (s := S16384) S512.size (cc0_transform_2 i) (hinb0_2 i)).WholeWords (EltTy.packing .f32)

variable [Facts₀]

def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S16384x1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S_, .i32⟩
  | .hbm, ⟨21, _⟩ => ⟨S16384x1, .i32⟩
  | .hbm, ⟨22, _⟩ => ⟨S16384x1, .i32⟩
  | .hbm, ⟨23, _⟩ => ⟨S16384x1, .i32⟩
  | .hbm, ⟨24, _⟩ => ⟨S16384x1x1, .i32⟩
  | .hbm, ⟨25, _⟩ => ⟨S1, .i32⟩
  | .hbm, ⟨26, _⟩ => ⟨S_, .i32⟩
  | .hbm, ⟨27, _⟩ => ⟨S16384x1x1, .i32⟩
  | .hbm, ⟨28, _⟩ => ⟨S16384x1x1, .i1⟩
  | .hbm, ⟨29, _⟩ => ⟨S1x1x1, .i32⟩
  | .hbm, ⟨30, _⟩ => ⟨S16384x1x1, .i32⟩
  | .hbm, ⟨31, _⟩ => ⟨S16384x1x1, .i1⟩
  | .hbm, ⟨32, _⟩ => ⟨S16384x1x1, .i1⟩
  | .hbm, ⟨33, _⟩ => ⟨S_, .i1⟩
  | .hbm, ⟨34, _⟩ => ⟨S16384x1, .i1⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384x4096, .f32⟩
  | .hbm, ⟨43, _⟩ => ⟨S16384x4096, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_cst_5 : Ref sig .tc := ⟨.hbm, 49, rfl⟩
abbrev main_v20 : Ref sig .tc := ⟨.hbm, 50, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  bcast_S_S16384x4096 : S_.BroadcastsInDim S16384x4096 (![] : Fin 0 → Fin S16384x4096.rank)
  reducesTo_S16384x4096_S_d0_1 : S16384x4096.ReducesTo [0, 1] S_
  gather_S16384x4096_S16384x1x1_S16384x1_n_1_0_0_1_2_11_wf : GatherDims.WF S16384x4096 S16384x1x1 S16384x1 [] [1] [0] [1] [0] 2 ![1, 1]

variable [Facts₀]

def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf

class Facts : Prop extends Facts₀ where

variable [Facts]
-- ==== Proof.LibFinite.lean ====
/-
  "Every entry's absolute value is below `+∞`" means every entry is a real number.

  A general reading of the finiteness test `all (|x| < +∞)` over an array of extended reals: the and-reduction of the
  entrywise comparison is the all-ones word exactly when each entry is neither `+∞` nor `-∞`.
-/
import Idealize.ShloMosaic.PureOps.Ideal
import Idealize.ShloMosaic.PureOps.Ideal.Laws
import Idealize.ShloMosaic.Lib.ReduceAll

noncomputable section

namespace FiniteTest

open Idealize.ShloMosaic

/-- The single-precision pattern `0x7F800000` denotes `+∞`. -/
theorem inf_bits : Ideal.ofBits .f32 0x7F800000#32 = (⊤ : EReal) := by
  simp [Ideal.ofBits, Ideal.ieee]

/-- On the extended reals `max a (-a) < ⊤` holds exactly of the real numbers: at `⊤` the maximum is `⊤`, at `⊥` it is
    `-⊥ = ⊤`, and at a real `r` it is the real `|r|`. Only the direction used below is stated. -/
theorem real_of_max_neg_lt_top (a : EReal) (h : max a (-a) < ⊤) : ∃ r : ℝ, a = (r : EReal) := by
  induction a using EReal.rec with
  | bot => simp at h
  | coe r => exact ⟨r, rfl⟩
  | top => simp at h

/-- One entry of the test: if the ordered comparison `|a| < +∞` answers the word `1`, then `a` is a real number.
    Here `|a|` is `max a (-a)` and `+∞` is the value of the pattern `0x7F800000`. -/
theorem real_of_cmp_abs_lt_inf (a : EReal)
    (h : Ideal.cmp .olt (max a (-a)) (Ideal.ofBits .f32 0x7F800000#32) = 1#1) : ∃ r : ℝ, a = (r : EReal) := by
  rw [inf_bits] at h
  refine real_of_max_neg_lt_top a ?_
  by_contra hn
  simp [Ideal.cmp, hn] at h

/-- The scalar shape has one index. -/
theorem subsingleton_scalarIdx : Subsingleton (⟨0, ![]⟩ : Shape).Idx :=
  ⟨fun _ _ => funext fun d => d.elim0⟩

/-- The finiteness test read back, at one result index `j` of the scalar shape. For an array `x` of any shape `s`: if
    the and-reduction over all axes of the entrywise comparison `|x| < +∞` (the bound being the scalar constant
    `0x7F800000` broadcast to `s`), started from the word `1`, is `1`, then every entry of `x` is a real number. The shape
    witnesses `hb`, `hr`, `hu` are arbitrary. -/
theorem real_of_all_abs_lt_inf_at {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (j : (⟨0, ![]⟩ : Shape).Idx)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  haveI : Subsingleton (⟨0, ![]⟩ : Shape).Idx := subsingleton_scalarIdx
  have e := Host.reduce_andi_all _ _ hr hu j h i
  exact real_of_cmp_abs_lt_inf (x i) e

/-- The same, from the whole result being the all-ones word. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu = fun _ => 1#1) :
    ∀ i, ∃ r : ℝ, x i = (r : EReal) :=
  real_of_all_abs_lt_inf_at hb hr hu x (fun d => d.elim0) (congrFun h _)

end FiniteTest

end
-- ==== Proof.PreFacts.lean ====
/-
  What the precondition says of the two inputs.

  The precondition is the conjunction of three tests, each an "all" over an array: every score's absolute value is
  below `+∞`; every index word is at least `0`; every index word is below `4096` (both read as signed numbers).
  From the first, every score is a real number. From the other two, every index word, read as a natural number, is
  below `4096`: a signed word that is not negative reads the same signed and unsigned, so it names a column of a row
  of `4096` scores.
-/
import proofs.«411710_j11261404250344_3_alg».proof.Pre_finite_inputs
import proofs.«411710_j11261404250344_3_alg».proof.Proof.LibFinite
import Idealize.ShloMosaic.Lib.ReduceAll
import Idealize.ShloMosaic.Lib.ValueIdx

noncomputable section

namespace Cert.PreFacts

open Idealize.ShloMosaic Cert.Pre_finite_inputs

variable [Facts]

/-- A word that is at least `0` and below `4096` as a signed number is below `4096` as a natural number: were its top
    bit set it would be negative as a signed number. -/
theorem toNat_lt_of_signed_range (w : BitVec 32) (h0 : IntOp.cmpi .sge w 0#32 = 1#1)
    (h1 : IntOp.cmpi .slt w 4096#32 = 1#1) : w.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have hw := BitVec.toInt_eq_toNat_cond w
  have hlt := w.isLt
  split at hw <;> omega

/-- THE PRECONDITION READ BACK: if the three tests all answer `1`, every score is a real number and every index word
    is, as a natural number, below `4096`. -/
theorem decode (x : FVec Ideal S16384x4096 .f32) (l : IVec S16384 32)
    (h : fn (F := Ideal) x l = fun _ => 1#1) :
    (∀ i, ∃ r : ℝ, x i = (r : EReal)) ∧ ∀ i, (l i).toNat < 4096 := by
  haveI : Subsingleton S_.Idx := FiniteTest.subsingleton_scalarIdx
  have e := congrFun h ValueIdx.ix0
  dsimp only [fn] at e
  change IntOp.andi (IntOp.andi _ _) _ = 1#1 at e
  rw [IntOp.andi_eq_one, IntOp.andi_eq_one] at e
  obtain ⟨⟨h1, h2⟩, h3⟩ := e
  refine ⟨FiniteTest.real_of_all_abs_lt_inf_at _ _ _ x ValueIdx.ix0 h1, fun i => ?_⟩
  have g0 := Host.reduce_andi_all _ _ _ _ _ h2 i
  have g1 := Host.reduce_andi_all _ _ _ _ _ h3 i
  exact toNat_lt_of_signed_range (l i) g0 g1

end Cert.PreFacts

end
-- ==== Proof.RowLoss.lean ====
/-
  The margin ranking loss of ONE ROW of scores, in the two arrangements in which it is computed, and the law that
  joins them.

  For a row `v` of scores, a shift `M` and a distinguished column `l` write `e q = exp (v q - M)`, `S = ∑ q, e q` and
  `μ` for the margin. One arrangement normalises first: every entry's probability `e q / S` is compared with the
  distinguished one, `max (e q / S - e l / S + μ) 0`, and the row's loss is the sum of these over `q`. The other keeps
  the unnormalised `e q`, folds the distinguished entry and the margin into one number `c = e l - μ · S` per row, sums
  `max (e q - c) 0` and divides the row's sum by `S` once. Because `S` is a positive real number,
      max (e q - (e l - μ S)) 0 / S = max ((e q - e l + μ S) / S) 0 = max (e q / S - e l / S + μ) 0,
  and a finite sum commutes with the division: the two arrangements are one number. On the extended reals this needs
  every score and the shift to be real numbers (with an infinite score `S` could be `⊤` and the division would not
  distribute); then every intermediate is the image of a real number and the identity is the one above over `ℝ`.
-/
import Idealize.ShloMosaic.PureOps.Ideal
import Idealize.ShloMosaic.PureOps.Ideal.Laws
import Mathlib.Data.Finset.Fold

noncomputable section

namespace RankLoss

open Idealize.ShloMosaic

/-! ## The constants -/

/-- The margin: the single-precision pattern nearest to one tenth, which both computations carry. -/
def margin : EReal := Ideal.ofBits .f32 0x3DCCCCCD#32

/-- The margin's pattern denotes a real number (it is a normal number: neither an infinity nor a NaN pattern). -/
theorem margin_real : ∃ μ : ℝ, margin = (μ : EReal) := by
  refine ⟨margin.toReal, (EReal.coe_toReal ?_ ?_).symm⟩ <;>
    simp [margin, Ideal.ofBits, Ideal.ieee, -EReal.coe_mul]

/-- The pattern `0xFF800000` denotes `-∞`, the bottom of the extended reals. -/
theorem negInf_bits : Ideal.ofBits .f32 0xFF800000#32 = (⊥ : EReal) := by
  simp [Ideal.ofBits, Ideal.ieee]

/-! ## Real numbers inside the extended reals -/

/-- The image of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The image of the larger of two reals is the larger of the images. -/
theorem coe_max (a b : ℝ) : ((max a b : ℝ) : EReal) = max (a : EReal) (b : EReal) :=
  EReal.coe_strictMono.monotone.map_max

/-- The quotient of two reals, the divisor not zero, is the image of the real quotient. -/
theorem div_coe_coe (a b : ℝ) (hb : b ≠ 0) : Ideal.div (a : EReal) (b : EReal) = ((a / b : ℝ) : EReal) := by
  rw [Ideal.div_coe hb, ← EReal.coe_mul, mul_one_div]

/-- The exponential of a difference of two reals is the image of the real exponential. -/
theorem exp_coe_sub (a b : ℝ) : Ideal.exp ((a : EReal) - (b : EReal)) = ((Real.exp (a - b) : ℝ) : EReal) := rfl

/-- The largest entry of a nonempty row of real numbers, taken as the fold of `max` from `-∞`, is a real number:
    it is below `⊤` because every entry is, and above `⊥` because some entry is. -/
theorem fold_max_real {n : Nat} (r : Fin n → ℝ) (q₀ : Fin n) :
    ∃ m : ℝ, (Finset.univ : Finset (Fin n)).fold max (⊥ : EReal) (fun q => (r q : EReal)) = (m : EReal) := by
  refine ⟨_, (EReal.coe_toReal ?_ ?_).symm⟩
  · exact ne_of_lt ((Finset.fold_max_lt _).mpr ⟨bot_lt_top, fun q _ => EReal.coe_lt_top _⟩)
  · exact ne_of_gt ((Finset.lt_fold_max _).mpr (Or.inr ⟨q₀, Finset.mem_univ _, EReal.bot_lt_coe _⟩))

/-! ## The two arrangements -/

/-- Divide once: the row's sum of `max (e q - (exp (a - M) - μ · S)) 0`, divided by `S`; `a` is the score of the
    distinguished column. -/
def dividedOnce {n : Nat} (M a : EReal) (v : Fin n → EReal) : EReal :=
  Ideal.div
    (∑ q, max (Ideal.exp (v q - M) - (Ideal.exp (a - M) - margin * ∑ q', Ideal.exp (v q' - M))) 0)
    (∑ q', Ideal.exp (v q' - M))

/-- Normalise first: one entry `max (e q / S - P + μ) 0`, with `S` the row's sum and `P` the distinguished column's
    probability as they were computed. -/
def normalisedEntry {n : Nat} (M S P : EReal) (v : Fin n → EReal) (q : Fin n) : EReal :=
  max (Ideal.div (Ideal.exp (v q - M)) S - P + margin) 0

/-! ## The law -/

/-- Over the reals: with `S > 0`, dividing the sum of the clipped differences once is summing the clipped differences
    of the quotients. -/
theorem real_law {n : Nat} (e : Fin n → ℝ) (μ S : ℝ) (hS : 0 < S) (l : Fin n) :
    (∑ q, max (e q - (e l - μ * S)) 0) / S = ∑ q, max (e q / S - e l / S + μ) 0 := by
  rw [Finset.sum_div]
  refine Finset.sum_congr rfl fun q _ => ?_
  rw [← max_div_div_right hS.le, zero_div]
  congr 1
  field_simp
  ring

/-- THE LAW on the extended reals, for a row of real scores and a real shift: the divide-once arrangement at the
    distinguished column's score equals the sum of the normalise-first entries at that column's probability. -/
theorem dividedOnce_eq_sum_normalised {n : Nat} (r : Fin n → ℝ) (m : ℝ) (l : Fin n) :
    dividedOnce (m : EReal) ((r l : ℝ) : EReal) (fun q => (r q : EReal))
      = ∑ q, normalisedEntry (m : EReal) (∑ q', Ideal.exp ((r q' : EReal) - (m : EReal)))
          (Ideal.div (Ideal.exp ((r l : EReal) - (m : EReal))) (∑ q', Ideal.exp ((r q' : EReal) - (m : EReal))))
          (fun q => (r q : EReal)) q := by
  obtain ⟨μ, hμ⟩ := margin_real
  have hS : (∑ q', Ideal.exp ((r q' : EReal) - (m : EReal))) = ((∑ q', Real.exp (r q' - m) : ℝ) : EReal) := by
    rw [coe_sum]; rfl
  have hpos : 0 < ∑ q', Real.exp (r q' - m) :=
    Finset.sum_pos (fun q _ => Real.exp_pos _) ⟨l, Finset.mem_univ _⟩
  unfold dividedOnce normalisedEntry
  simp only [hS, hμ, exp_coe_sub, div_coe_coe _ _ hpos.ne']
  simp only [← EReal.coe_mul, ← EReal.coe_sub, ← EReal.coe_add, ← EReal.coe_zero, ← coe_max, ← coe_sum,
    div_coe_coe _ _ hpos.ne']
  exact congrArg _ (real_law (fun q => Real.exp (r q - m)) μ _ hpos l)

/-- The largest entry of a nonempty row of extended reals that are all real numbers, folded from the pattern of `-∞`,
    is a real number. -/
theorem fold_max_real_of {n : Nat} (v : Fin n → EReal) (hv : ∀ q, ∃ r : ℝ, v q = (r : EReal)) (q₀ : Fin n) :
    ∃ m : ℝ, (Finset.univ : Finset (Fin n)).fold max (Ideal.ofBits .f32 0xFF800000#32) v = (m : EReal) := by
  choose r hr using hv
  obtain rfl : v = fun q => (r q : EReal) := funext hr
  rw [negInf_bits]
  exact fold_max_real r q₀

/-- THE LAW for a row of extended reals that are all real numbers and a shift that is a real number. -/
theorem law_of_real {n : Nat} (v : Fin n → EReal) (hv : ∀ q, ∃ r : ℝ, v q = (r : EReal)) (M : EReal)
    (hM : ∃ m : ℝ, M = (m : EReal)) (l : Fin n) :
    dividedOnce M (v l) v
      = ∑ q, normalisedEntry M (∑ q', Ideal.exp (v q' - M))
          (Ideal.div (Ideal.exp (v l - M)) (∑ q', Ideal.exp (v q' - M))) v q := by
  choose r hr using hv
  obtain ⟨m, rfl⟩ := hM
  obtain rfl : v = fun q => (r q : EReal) := funext hr
  exact dividedOnce_eq_sum_normalised r m l

end RankLoss

end
-- ==== Proof.LibColumn.lean ====
/-
  A column kept beside a matrix, read at an index given by coordinates.

  A reduction along the rows of an `[a, b]` matrix that keeps the reduced axis gives an `[a, 1]` column. Three layout
  operations move between a vector `[a]`, such a column, and the matrix: the vector cast to the column, the column cast
  back to the vector, and the column broadcast across the `b` positions of every row. Each is read here at an index
  written by its coordinates; every one reads the operand at the row's number, whatever the other coordinate is.
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(i, u)`, the vector at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to an `[a, b]` matrix reads, at `(i, j)`, the column at `(i, 0)`: the same number all
    along row `i`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, 1]` column cast to `[a, 1, 1]` reads, at `(i, u, v)`, the column at `(i, 0)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_two, Shape.rowMajor_val_three]
    show i.val * 1 + 0 = (i.val * 1 + u.val) * 1 + v.val
    rw [hu, hv, Nat.mul_one, Nat.add_zero, Nat.add_zero, Nat.mul_one])

end ColumnLayout
-- ==== Proof.KernelRow.lean ====
/-
  What the kernel's body stores, read at one row.

  The body loads a block of `512` rows of `4096` scores and a vector of `512` distinguished scores, one per row, and
  stores `512` numbers. Its row maximum and its two row sums are reductions along the second axis; the values kept
  as a column beside the block and spread back across it are the same number all along a row. So the number stored for
  row `r` depends on that row of the block and on the `r`-th distinguished score only, and it is the divide-once
  arrangement of the row's margin loss with the row's own maximum as the shift.
-/
import proofs.«411710_j11261404250344_3_alg».proof.Proof.Gen.KernelIdeal.Skeleton
import proofs.«411710_j11261404250344_3_alg».proof.Proof.RowLoss
import proofs.«411710_j11261404250344_3_alg».proof.Proof.LibColumn
import Idealize.ShloMosaic.PureOps.Ideal.Laws
import Idealize.ShloMosaic.Lib.ValueIdx
import Idealize.ShloMosaic.Lib.Pipeline.Value

noncomputable section

namespace Cert.KernelIdeal.RowValue

open Cert.KernelIdeal Cert.KernelIdeal.Gen Idealize.ShloMosaic Idealize.ShloMosaic.ValueIdx

/-- The index a reduction along the second axis reads for row `r` and position `q` is `(r, q)`. -/
theorem lift_row (h : S512x4096.Reduces [1] S512) (r : Fin 512) (q : Fin 4096) : h.lift (ix1 r) q = ix2 r q :=
  funext fun a => Fin.ext (by match a with | ⟨0, _⟩ => rfl | ⟨1, _⟩ => rfl)

/-- A sum along the rows of a block, at row `r`: the sum over the row's `4096` positions. -/
theorem rowSum_apply (src : FVec Ideal S512x4096 .f32) (h : S512x4096.Reduces [1] S512) (hφ : FKind.Formats .f32)
    (hacc : (0x00000000#32 : BitVec 32) = FKind.add.neutral .f32 hφ) (r : Fin 512) :
    multiReduction .add [1] S512 src 0x00000000#32 h hφ hacc (ix1 r) = ∑ q : Fin 4096, src (ix2 r q) :=
  (Ideal.multiReduction_add_single src _ h hφ hacc (ix1 r)).trans
    (Finset.sum_congr rfl fun q _ => congrArg src (lift_row h r q))

/-- A maximum along the rows of a block, at row `r`: the fold of `max` over the row's positions from the starting
    value's pattern. -/
theorem rowMax_apply (src : FVec Ideal S512x4096 .f32) (h : S512x4096.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = (Finset.univ : Finset (Fin 4096)).fold max (Ideal.ofBits .f32 0xFF800000#32) (fun q => src (ix2 r q)) :=
  (Ideal.multiReduction_maximumf_single src _ h hφ hacc (ix1 r)).trans
    (congrArg (Finset.univ.fold max _) (funext fun q => congrArg src (lift_row h r q)))

/-- The exponential of a vector, at an index. -/
theorem exp_apply {s : Shape} {φ : FTy} (a : FVec Ideal s φ) (i : s.Idx) : exp a i = Ideal.exp (a i) := rfl

set_option backward.isDefEq.respectTransparency.types false in
/-- THE BODY AT ROW `r`: the number stored for row `r` is the divide-once arrangement of that row of the block at the
    `r`-th distinguished score, shifted by the row's maximum. -/
theorem payload_apply (x0 : FVec Ideal S512x4096 .f32) (x1 : FVec Ideal S512 .f32) (r : Fin 512) :
    k0_pay1 (F := Ideal) x0 x1 (ix1 r)
      = RankLoss.dividedOnce
          ((Finset.univ : Finset (Fin 4096)).fold max (Ideal.ofBits .f32 0xFF800000#32) (fun q => x0 (ix2 r q)))
          (x1 (ix1 r)) (fun q : Fin 4096 => x0 (ix2 r q)) := by
  unfold k0_pay1 RankLoss.dividedOnce RankLoss.margin
  repeat (first
    | rw [rowSum_apply]
    | rw [rowMax_apply]
    | simp only [ColumnLayout.shapeCast_a1_a_apply, ColumnLayout.shapeCast_a_a1_apply,
        ColumnLayout.broadcastTo_a1_ab_apply, shapeCast_self, divf_apply, subf_apply, mulf_apply, maximumf_apply,
        broadcast_apply, exp_apply, Ideal.ofBits_def, Ideal.ofBits_zero_f32])

end Cert.KernelIdeal.RowValue

end
-- ==== Proof.KernelArray.lean ====
/-
  From the blocks the kernel writes back to the whole array of row losses.

  The grid has `32` points; point `t` reads rows `512 t … 512 t + 511` of the score matrix and the same positions of the
  vector of distinguished scores, and writes back the same positions of the result. Row `r` of point `t`'s block is row
  `512 t + r` of the matrix, so what the point stores there is the divide-once arrangement of THAT row of the whole matrix
  at THAT entry of the whole vector: each written block is a block of one function of the two whole arrays. The `32`
  blocks tile the `16384` positions (position `i` lies in the block of point `i / 512`), so after the run the result
  array is that function everywhere.
-/
import proofs.«411710_j11261404250344_3_alg».proof.Proof.Gen.KernelIdeal.Frame
import proofs.«411710_j11261404250344_3_alg».proof.Proof.KernelRow
import Idealize.ShloMosaic.Lib.Pipeline.Value

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx

variable (m : (ℓ : Loc nD τ sig) → Buf (Elt Ideal) ℓ)

/-- The row losses of a whole matrix `X` of scores at a whole vector `A` of distinguished scores: at position `i` the
    divide-once arrangement of row `i` of `X` at `A i`, shifted by that row's maximum. -/
def rowLosses (X : FVec Ideal S16384x4096 .f32) (A : FVec Ideal S16384 .f32) : FVec Ideal S16384 .f32 := fun i =>
  RankLoss.dividedOnce
    ((Finset.univ : Finset (Fin 4096)).fold max (Ideal.ofBits .f32 0xFF800000#32) (fun q => X (ix2 (i 0 : Fin 16384) q)))
    (A i) (fun q : Fin 4096 => X (ix2 (i 0 : Fin 16384) q))

/-- One row of one block: if row `r` of the block `x0` is row `i` of `X` and entry `r` of `x1` is entry `i` of `A`, the
    body's stored value at `r` is the row loss at `i`. -/
theorem block_row (X : FVec Ideal S16384x4096 .f32) (A : FVec Ideal S16384 .f32) (x0 : FVec Ideal S512x4096 .f32)
    (x1 : FVec Ideal S512 .f32) (i : S16384.Idx) (r : Fin 512)
    (h0 : ∀ q : Fin 4096, x0 (ix2 r q) = X (ix2 (i 0 : Fin 16384) q)) (h1 : x1 (ix1 r) = A i) :
    k0_pay1 (F := Ideal) x0 x1 (ix1 r) = rowLosses X A i := by
  rw [RowValue.payload_apply]
  unfold rowLosses
  simp only [h0, h1]

theorem hz1 : (![0] : Fin 1 → Nat) = fun _ => 0 := funext fun a => by fin_cases a <;> rfl
theorem hz2 : (![0, 0] : Fin 2 → Nat) = fun _ => 0 := funext fun a => by fin_cases a <;> rfl

/-- The printed index maps, decided over the grid: the matrix's block moves with the result's along the rows and stays
    at column block `0`; the vector's block moves with the result's; the result's block index is the point's number. -/
theorem idx_facts : ∀ t : Fin cfg0.N, win0_0.index t (0 : Fin 2) = win0_2.index t (0 : Fin 1)
    ∧ win0_0.index t (1 : Fin 2) = 0
    ∧ win0_1.index t (0 : Fin 1) = win0_2.index t (0 : Fin 1)
    ∧ win0_2.index t (0 : Fin 1) = t.val :=
  (by decide +kernel : ∀ t : Fin grid0.N, _)

/-- WHAT POINT `t` WRITES BACK is block `t` of the row losses of the two arrays as the region finds them. -/
theorem flushed_eq (c : Dev nD) (t : Fin cfg0.N) :
    (dats m 0 c).flushed 2 t
      = ((cfg0.win 2).blk t).view.read (Elt Ideal) (rowLosses (V m c main_arg0) (V m c main_v3)) := by
  show (cfg0.win 2).cut (grid0.coords t) ((dats m 0 c).after 2 t) = _
  rw [after0_2]
  unfold out0_2
  rw [View.canon_unit_zero hz1]
  simp only [View.ld_unit_zero (S := S512x4096) hz2, View.ld_unit_zero (S := S512) hz1]
  obtain ⟨e0, e1, e2, e3⟩ := idx_facts t
  funext j
  refine (congrArg (k0_pay1 (F := Ideal) (iblk m c 0 t) (iblk m c 1 t)) (eq_ix1 (n := 512) j)).trans ?_
  refine block_row _ _ _ _ (((cfg0.win 2).blk t).view.emb j) (j 0) (fun q => ?_) ?_
  · show V m c main_arg0 (((cfg0.win 0).blk t).view.emb (ix2 (j 0) q)) = V m c main_arg0 (ix2 _ q)
    congr 1
    funext a
    apply Fin.ext
    match a with
    | ⟨0, _⟩ =>
      show win0_0.index t (0 : Fin 2) * 512 + 1 * (j 0).val = win0_2.index t (0 : Fin 1) * 512 + 1 * (j 0).val
      omega
    | ⟨1, _⟩ =>
      show win0_0.index t (1 : Fin 2) * 4096 + 1 * q.val = q.val
      omega
  · show V m c main_v3 (((cfg0.win 1).blk t).view.emb (ix1 (j 0))) = V m c main_v3 (((cfg0.win 2).blk t).view.emb j)
    congr 1
    funext a
    apply Fin.ext
    match a with
    | ⟨0, _⟩ =>
      show win0_1.index t (0 : Fin 1) * 512 + 1 * (j 0).val = win0_2.index t (0 : Fin 1) * 512 + 1 * (j 0).val
      omega

/-- A position of the result array is in point `t`'s block iff it is in the block's range. -/
theorem mem_blk (t : Fin cfg0.N) (i : S16384.Idx) :
    i ∈ ((cfg0.win 2).blk t).view.set
      ↔ ∀ a : Fin 1, win0_2.index t a * S512.size a ≤ (i a).val ∧ (i a).val < win0_2.index t a * S512.size a + S512.size a := by
  show i ∈ ((View.whole main_v4).slice (win0_2.rect t)).set ↔ _
  rw [View.set_slice_whole, Rect.mem_set_unit]
  exact Iff.rfl

/-- The blocks tile the array: position `i` lies in the block of point `i / 512`. -/
theorem cover (i : S16384.Idx) :
    ∃ t : Fin cfg0.N, (cfg0.win 2).flush t = true ∧ i ∈ ((cfg0.win 2).blk t).view.set := by
  have hi : (i 0).val < 16384 := (i 0).isLt
  have hN : cfg0.N = 32 := N_0
  let t : Fin cfg0.N := ⟨(i 0).val / 512, by rw [hN]; omega⟩
  obtain ⟨-, -, -, e3⟩ := idx_facts t
  have ht : t.val = (i 0).val / 512 := rfl
  refine ⟨t, flush0_2 t, ?_⟩
  rw [mem_blk]
  intro a
  match a with
  | ⟨0, _⟩ =>
    show win0_2.index t (0 : Fin 1) * 512 ≤ (i 0).val ∧ (i 0).val < win0_2.index t (0 : Fin 1) * 512 + 512
    omega

/-- THE RESULT ARRAY after the run: the row losses of the matrix and the vector of distinguished scores as the region
    finds them. -/
theorem final (c : Dev nD) :
    (dats m 0 c).arrAt 2 cfg0.N = rowLosses (V m c main_arg0) (V m c main_v3) :=
  (dats m 0 c).arrAt_eq_of_cover 2 _ (fun t _ => flushed_eq m c t) cover

end Cert.KernelIdeal.ArrayValue

end
-- ==== Proof.LibTakeAlong.lean ====
/-
  Taking one entry from every row of a matrix, read at an index.

  `take_along_axis` of an `[N, M]` matrix `x` along its second axis at an `[N, 1]` array of column numbers is a gather
  whose first axis is a batching axis on both sides and whose start index has the one component that names the column:
  over the indices as `[N, 1, 1]`, offset axes none, the second operand axis collapsed, the first batching, slices of
  one element. Result element `(p, u)` is `x` at row `p` and at the column `idx[p, u, 0]`, read as a signed number and
  clamped into `[0, M − 1]` as every gather clamps its start.
-/
import Idealize.ShloMosaic.PureOps.ShapeOps
import Idealize.ShloMosaic.PureOps.Reduce
import Idealize.ShloMosaic.Lib.Affine
import Idealize.ShloMosaic.Lib.ValueIdx
import proofs.«411710_j11261404250344_3_alg».proof.Proof.LibColumn

namespace TakeAlong

open Idealize.ShloMosaic Idealize.ShloMosaic.ValueIdx

variable {α : Type}

/-- Those dimension numbers for an operand `[N, M]`, start indices `[N, 1, 1]` and result `[N, 1]`; their conditions
    are decided on a program's literal shapes. -/
abbrev dims (N M : Nat)
    (wf : GatherDims.WF ⟨2, ![N, M]⟩ ⟨3, ![N, 1, 1]⟩ ⟨2, ![N, 1]⟩ [] [1] [0] [1] [0] 2 ![1, 1]) :
    GatherDims ⟨2, ![N, M]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT `(p, u)`: row `p` of the operand at the column the start index names, read signed and clamped
    into `[0, M − 1]`. -/
theorem gather_apply {N M w : Nat} (hM : 0 < M)
    (wf : GatherDims.WF ⟨2, ![N, M]⟩ ⟨3, ![N, 1, 1]⟩ ⟨2, ![N, 1]⟩ [] [1] [0] [1] [0] 2 ![1, 1])
    (x : (⟨2, ![N, M]⟩ : Shape).Idx → α) (idx : IVec ⟨3, ![N, 1, 1]⟩ w) (p : Fin N) (u : Fin 1) :
    Host.gather (dims N M wf) x idx (ix2 p u)
      = x (ix2 p ⟨min (idx (ix3 p u (0 : Fin 1))).toInt.toNat (M - 1), by omega⟩) := by
  unfold Host.gather
  congr 1
  funext a
  refine Fin.ext ?_
  match a with
  | ⟨0, _⟩ =>
    show (dims N M wf).start (ix2 p u) idx 0 + (dims N M wf).batchCoord (ix2 p u) 0 + (dims N M wf).offCoord (ix2 p u) 0 = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show (dims N M wf).start (ix2 p u) idx 1 + (dims N M wf).batchCoord (ix2 p u) 1 + (dims N M wf).offCoord (ix2 p u) 1 = _
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims N M wf).startIndexMap from List.mem_singleton.mpr rfl)]
    have hsi : (dims N M wf).siIdx (ix2 p u) ⟨List.idxOf (1 : Fin 2) (dims N M wf).startIndexMap,
        List.idxOf_lt_length_iff.2 (List.mem_singleton.mpr rfl)⟩ = ix3 p u (0 : Fin 1) := by
      funext b
      refine Fin.ext ?_
      match b with
      | ⟨0, _⟩ => rfl
      | ⟨1, _⟩ => rfl
      | ⟨2, _⟩ => rfl
    rw [hsi]
    rfl

/-! ## Column numbers as words -/

/-- A word below `4096` reads the same signed and unsigned. -/
theorem toInt_of_lt (w : BitVec 32) (h : w.toNat < 4096) : w.toInt = (w.toNat : Int) := by
  have hw := BitVec.toInt_eq_toNat_cond w
  split at hw <;> omega

/-- Such a word is not negative: the wrap of negative column numbers leaves it alone. -/
theorem slt_zero_of_lt (w : BitVec 32) (h : w.toNat < 4096) : IntOp.cmpi .slt w 0#32 = 0#1 :=
  eq_zero_of_ne_one fun hc => by
    rw [IntOp.cmpi_slt, toInt_of_lt w h] at hc
    have e0 : (0#32 : BitVec 32).toInt = 0 := by decide
    omega

/-- It passes the lower range test, -/
theorem sge_zero_of_lt (w : BitVec 32) (h : w.toNat < 4096) : IntOp.cmpi .sge w 0#32 = 1#1 := by
  rw [IntOp.cmpi_sge, toInt_of_lt w h]
  have e0 : (0#32 : BitVec 32).toInt = 0 := by decide
  omega

/-- and the upper one. -/
theorem sle_max_of_lt (w : BitVec 32) (h : w.toNat < 4096) : IntOp.cmpi .sle w 4095#32 = 1#1 := by
  rw [IntOp.cmpi_sle, toInt_of_lt w h]
  have e1 : (4095#32 : BitVec 32).toInt = 4095 := by decide
  omega

/-- Clamping it into `[0, 4095]` leaves it alone. -/
theorem clamp_of_lt (w : BitVec 32) (h : w.toNat < 4096) : IntOp.minsi 4095#32 (IntOp.maxsi 0#32 w) = w := by
  have hs := toInt_of_lt w h
  have e0 : (0#32 : BitVec 32).toInt = 0 := by decide
  have e1 : (4095#32 : BitVec 32).toInt = 4095 := by decide
  have h1 : IntOp.maxsi 0#32 w = w := by
    unfold IntOp.maxsi
    rw [if_neg]
    rw [BitVec.slt_iff_toInt_lt]
    omega
  rw [h1]
  unfold IntOp.minsi
  rw [if_neg]
  rw [BitVec.slt_iff_toInt_lt]
  omega

/-- An "all" of a mask that is `1` everywhere, started from `1`, is `1`. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1)
    (hinit : init (Shape.Idx.first hu) = 1#1) : Host.reduce IntOp.andi x init h hu j = 1#1 := by
  rw [Host.reduce_eq_foldl, hinit]
  generalize (((List.finRange s.numel).map s.rowMajor.symm).filter fun i => h.drop i = j) = L
  induction L with
  | nil => rfl
  | cons a L ih =>
    rw [List.foldl_cons, hx a]
    exact ih

/-! ## The whole lowering -/

section Lowered

variable {N : Nat}

/-- The column numbers as the gather reads them: a negative one moved up by `4096`, then the `[N, 1]` column as an
    `[N, 1, 1]` array of one-component start indices. -/
def startIdx (hb0 : (⟨0, ![]⟩ : Shape).BroadcastsInDim ⟨2, ![N, 1]⟩ (![] : Fin 0 → Fin 2))
    (hc : (⟨2, ![N, 1]⟩ : Shape).ShapeCasts ⟨3, ![N, 1, 1]⟩) (w : IVec ⟨2, ![N, 1]⟩ 32) : IVec ⟨3, ![N, 1, 1]⟩ 32 :=
  shapeCast ⟨3, ![N, 1, 1]⟩
    (select (cmpi .slt w (broadcastInDim ⟨2, ![N, 1]⟩ ![] hb0 (constantI ⟨0, ![]⟩ 32 0#32)))
      (addi w (broadcastInDim ⟨2, ![N, 1]⟩ ![] hb0 (constantI ⟨0, ![]⟩ 32 4096#32))) w) hc

/-- `take_along_axis` along the second axis of an `[N, 4096]` matrix `y` at an `[N, 1]` column `w` of column numbers, as it
    lowers: the wrap of negative numbers, the range test `0 ≤ · ≤ 4095` of every start index, the gather, and the
    choice between the gathered entry and the fill value by the range test. -/
def lowered (hb0 : (⟨0, ![]⟩ : Shape).BroadcastsInDim ⟨2, ![N, 1]⟩ (![] : Fin 0 → Fin 2))
    (hc : (⟨2, ![N, 1]⟩ : Shape).ShapeCasts ⟨3, ![N, 1, 1]⟩)
    (hb3 : (⟨0, ![]⟩ : Shape).BroadcastsInDim ⟨3, ![N, 1, 1]⟩ (![] : Fin 0 → Fin 3))
    (hb1 : (⟨1, ![1]⟩ : Shape).BroadcastsInDim ⟨3, ![1, 1, 1]⟩ (![2] : Fin 1 → Fin 3))
    (hb111 : (⟨3, ![1, 1, 1]⟩ : Shape).BroadcastsInDim ⟨3, ![N, 1, 1]⟩ (![0, 1, 2] : Fin 3 → Fin 3))
    (hr : (⟨3, ![N, 1, 1]⟩ : Shape).ReducesTo [2] ⟨2, ![N, 1]⟩) (hu : 0 < (⟨0, ![]⟩ : Shape).numel)
    (wf : GatherDims.WF ⟨2, ![N, 4096]⟩ ⟨3, ![N, 1, 1]⟩ ⟨2, ![N, 1]⟩ [] [1] [0] [1] [0] 2 ![1, 1])
    (y : (⟨2, ![N, 4096]⟩ : Shape).Idx → α) (w : IVec ⟨2, ![N, 1]⟩ 32) (fill : (⟨2, ![N, 1]⟩ : Shape).Idx → α) :
    (⟨2, ![N, 1]⟩ : Shape).Idx → α :=
  select
    (Host.reduce IntOp.andi
      (andi
        (cmpi .sge (startIdx hb0 hc w) (broadcastInDim ⟨3, ![N, 1, 1]⟩ ![] hb3 (constantI ⟨0, ![]⟩ 32 0#32)))
        (cmpi .sle (startIdx hb0 hc w)
          (broadcastInDim ⟨3, ![N, 1, 1]⟩ ![0, 1, 2] hb111
            (broadcastInDim ⟨3, ![1, 1, 1]⟩ ![2] hb1 (constantI ⟨1, ![1]⟩ 32 4095#32)))))
      (constantI ⟨0, ![]⟩ 1 1#1) hr hu)
    (Host.gather (dims N 4096 wf) y (startIdx hb0 hc w))
    fill

/-- A start index of a column whose numbers are all below `4096` is the column's number in that row. -/
theorem startIdx_apply (hb0 : (⟨0, ![]⟩ : Shape).BroadcastsInDim ⟨2, ![N, 1]⟩ (![] : Fin 0 → Fin 2))
    (hc : (⟨2, ![N, 1]⟩ : Shape).ShapeCasts ⟨3, ![N, 1, 1]⟩) (w : IVec ⟨2, ![N, 1]⟩ 32)
    (hw : ∀ p : Fin N, (w (ix2 p (0 : Fin 1))).toNat < 4096) (p : Fin N) (u v : Fin 1) :
    startIdx hb0 hc w (ix3 p u v) = w (ix2 p (0 : Fin 1)) := by
  unfold startIdx
  rw [ColumnLayout.shapeCast_a1_a11_apply]
  show Scalar.select (IntOp.cmpi .slt (w (ix2 p (0 : Fin 1))) 0#32) _ _ = _
  rw [slt_zero_of_lt _ (hw p), select_zero]

/-- THE LOWERING READ AT `(p, u)`: when every column number is below `4096` (as a natural number), the range test passes
    everywhere and the result is row `p` of `y` at that row's column number; the fill value is never chosen. -/
theorem lowered_apply (hb0 : (⟨0, ![]⟩ : Shape).BroadcastsInDim ⟨2, ![N, 1]⟩ (![] : Fin 0 → Fin 2))
    (hc : (⟨2, ![N, 1]⟩ : Shape).ShapeCasts ⟨3, ![N, 1, 1]⟩)
    (hb3 : (⟨0, ![]⟩ : Shape).BroadcastsInDim ⟨3, ![N, 1, 1]⟩ (![] : Fin 0 → Fin 3))
    (hb1 : (⟨1, ![1]⟩ : Shape).BroadcastsInDim ⟨3, ![1, 1, 1]⟩ (![2] : Fin 1 → Fin 3))
    (hb111 : (⟨3, ![1, 1, 1]⟩ : Shape).BroadcastsInDim ⟨3, ![N, 1, 1]⟩ (![0, 1, 2] : Fin 3 → Fin 3))
    (hr : (⟨3, ![N, 1, 1]⟩ : Shape).ReducesTo [2] ⟨2, ![N, 1]⟩) (hu : 0 < (⟨0, ![]⟩ : Shape).numel)
    (wf : GatherDims.WF ⟨2, ![N, 4096]⟩ ⟨3, ![N, 1, 1]⟩ ⟨2, ![N, 1]⟩ [] [1] [0] [1] [0] 2 ![1, 1])
    (y : (⟨2, ![N, 4096]⟩ : Shape).Idx → α) (w : IVec ⟨2, ![N, 1]⟩ 32) (fill : (⟨2, ![N, 1]⟩ : Shape).Idx → α)
    (hw : ∀ p : Fin N, (w (ix2 p (0 : Fin 1))).toNat < 4096) (p : Fin N) (u : Fin 1) :
    lowered hb0 hc hb3 hb1 hb111 hr hu wf y w fill (ix2 p u) = y (ix2 p ⟨(w (ix2 p (0 : Fin 1))).toNat, hw p⟩) := by
  unfold lowered
  show Scalar.select (Host.reduce IntOp.andi _ _ hr hu (ix2 p u)) (Host.gather _ y _ (ix2 p u)) _ = _
  rw [reduce_andi_one _ _ hr hu (ix2 p u) (fun i => ?_) rfl, select_one, gather_apply (by decide)]
  · congr 1
    funext a
    refine Fin.ext ?_
    match a with
    | ⟨0, _⟩ => rfl
    | ⟨1, _⟩ =>
      show min (startIdx hb0 hc w (ix3 p u (0 : Fin 1))).toInt.toNat (4096 - 1) = (w (ix2 p (0 : Fin 1))).toNat
      rw [startIdx_apply hb0 hc w hw, toInt_of_lt _ (hw p)]
      have := hw p
      omega
  · obtain ⟨a, b, c, rfl⟩ : ∃ (a : Fin N) (b c : Fin 1), i = ix3 a b c := ⟨i 0, i 1, i 2, eq_ix3 i⟩
    show IntOp.andi (IntOp.cmpi .sge (startIdx hb0 hc w (ix3 a b c)) 0#32)
      (IntOp.cmpi .sle (startIdx hb0 hc w (ix3 a b c)) 4095#32) = 1#1
    rw [startIdx_apply hb0 hc w hw, sge_zero_of_lt _ (hw _), sle_max_of_lt _ (hw _)]
    rfl

end Lowered

end TakeAlong
-- ==== Proof.KernelHost.lean ====
/-
  The kernel's program around its one region, and its run with the result named.

  Before the region the program clamps the column numbers into `[0, 4095]` and takes, from every row of the score matrix,
  the score at that row's clamped column: the vector of distinguished scores the region reads beside the matrix. After
  the region it sums the `16384` row losses and divides by `16384`. So the program's result is the mean of the row losses of
  the score matrix at those distinguished scores. When every column number is already a column of the matrix the clamp
  does nothing and the distinguished score of row `p` is the matrix's entry at row `p` and that column.
-/
import proofs.«411710_j11261404250344_3_alg».proof.Proof.KernelArray
import proofs.«411710_j11261404250344_3_alg».proof.Proof.LibTakeAlong
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.HostValue

open Cert.KernelIdeal Cert.KernelIdeal.Gen Cert.KernelIdeal.ArrayValue Idealize.ShloMosaic.ValueIdx

variable (m : (ℓ : Loc nD τ sig) → Buf (Elt Ideal) ℓ) (ρ : Dev nD → PrngReg)

/-! ## Before the region: the distinguished scores -/

/-- The column numbers clamped into `[0, 4095]`, as a column. -/
def clampedColumn (l : IVec S16384 32) : IVec S16384x1 32 :=
  shapeCast S16384x1
    (minsi (broadcastInDim S16384 ![] bcast_S_S16384 (constantI S_ 32 4095#32))
      (maxsi (broadcastInDim S16384 ![] bcast_S_S16384 (constantI S_ 32 0#32)) l))
    shapeCasts_S16384_S16384x1

/-- The distinguished scores: from every row of `X` the entry at the row's clamped column number. -/
def anchorScores (X : FVec Ideal S16384x4096 .f32) (l : IVec S16384 32) : FVec Ideal S16384 .f32 :=
  shapeCast S16384
    (TakeAlong.lowered bcast_S_S16384x1 shapeCasts_S16384x1_S16384x1x1 bcast_S_S16384x1x1 bcast_S1_S1x1x1_2
      bcast_S1x1x1_S16384x1x1_0_1_2 reducesTo_S16384x1x1_S16384x1_d2 h_S_
      gather_S16384x4096_S16384x1x1_S16384x1_n_1_0_0_1_2_11_wf X (clampedColumn l)
      (broadcastInDim S16384x1 ![] bcast_S_S16384x1 (constant (F := Ideal) S_ .f32 0x7FC00000#32)))
    shapeCasts_S16384x1_S16384

set_option maxHeartbeats 4000000 in
set_option maxRecDepth 65536 in
/-- The region finds its second operand at the distinguished scores of the two arguments. -/
theorem V_anchor (c : Dev nD) :
    (V m c main_v3 : S16384.Idx → EReal)
      = anchorScores (m ((c : Thread nD τ).loc main_arg0)) (m ((c : Thread nD τ).loc main_arg1)) := by
  dsimp only [V, V0]
  simp only [List.flatten_cons, List.flatten_nil, List.append_nil, List.cons_append, List.nil_append]
  after_results_simp
  simp only [TRef.ofBuf, TRef.toBuf, cast_eq]
  rfl

/-- A clamped column number that was already a column of the matrix is itself. -/
theorem clampedColumn_apply (l : IVec S16384 32) (hl : ∀ i, (l i).toNat < 4096) (p : Fin 16384) :
    clampedColumn l (ix2 p (0 : Fin 1)) = l (ix1 p) := by
  unfold clampedColumn
  rw [ColumnLayout.shapeCast_a_a1_apply]
  show IntOp.minsi 4095#32 (IntOp.maxsi 0#32 (l (ix1 p))) = _
  exact TakeAlong.clamp_of_lt _ (hl _)

/-- With every column number a column of the matrix, the distinguished score of row `p` is the matrix's entry at row `p`
    and that column. -/
theorem anchorScores_apply (X : FVec Ideal S16384x4096 .f32) (l : IVec S16384 32) (hl : ∀ i, (l i).toNat < 4096)
    (p : Fin 16384) : anchorScores X l (ix1 p) = X (ix2 p ⟨(l (ix1 p)).toNat, hl _⟩) := by
  have hw : ∀ p : Fin 16384, (clampedColumn l (ix2 p (0 : Fin 1))).toNat < 4096 := fun p => by
    rw [clampedColumn_apply l hl p]; exact hl _
  unfold anchorScores
  rw [ColumnLayout.shapeCast_a1_a_apply, TakeAlong.lowered_apply _ _ _ _ _ _ _ _ _ _ _ hw p 0]
  congr 1
  funext a
  apply Fin.ext
  match a with
  | ⟨0, _⟩ => rfl
  | ⟨1, _⟩ =>
    show (clampedColumn l (ix2 p (0 : Fin 1))).toNat = (l (ix1 p)).toNat
    rw [clampedColumn_apply l hl p]

/-! ## After the region: the mean -/

/-- The sum of a vector of `16384` numbers divided by `16384`, as both programs end. -/
def meanOf (v : FVec Ideal S16384 .f32) : FVec Ideal S_ .f32 :=
  Host.divf (F := Ideal)
    (Host.reduceAdd (F := Ideal) v (constant (F := Ideal) S_ .f32 0x00000000#32) reducesTo_S16384_S_d0 h_S_)
    (constant (F := Ideal) S_ .f32 0x46800000#32)

/-- What the lines after the region leave in the result buffer: the mean of the region's result array. -/
theorem tail_eq (c : Dev nD) :
    Pipeline.afterTail₀ cfgs (dats m) 0 (V0 m) [hostOps1] c main_v6 = meanOf ((dats m 0 c).arrAt 2 cfg0.N) := by
  unfold Pipeline.afterTail₀
  show StableHlo.after hostOps1 _ (Proc.devRef .tc main_v6) = _
  after_results
  exact congrArg meanOf
    (Pipeline.withArrays_arr spec0 launch0.win.arr_inj c (V0 m c) (fun w => (dats m 0 c).arrAt w cfg0.N) 2)

/-! ## The run -/

/-- The kernel's program runs, ends with its result at the mean of the row losses of the score matrix at the
    distinguished scores, and leaves its arguments as they were. -/
theorem run : θ_run defs (onTc (τ := τ) (main (F := Ideal))) ⟨m, fun _ => 0, ρ⟩ fun r => ∀ c : Dev nD,
      r.2.mem ((c.tc : Thread nD τ).loc main_v6)
        = meanOf (rowLosses (m ((c.tc : Thread nD τ).loc main_arg0))
            (anchorScores (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans
          ((tail_eq m c).trans (by rw [final m c, V_main_arg0 m c, V_anchor m c])),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.HostValue

end
-- ==== Proof.RefValue.lean ====
/-
  The reference program's result, read stage by stage.

  The reference takes the softmax of every row: with `M` the row's maximum, `e q = exp (x q - M)` and `S = ∑ q, e q`, the
  probabilities are `e q / S`. It takes from every row of the PROBABILITIES the entry at the row's column number (a
  negative number first moved up by `4096`, and the fill value where the number is then still out of range), compares
  every probability of the row with that one, `max (e q / S - e l / S + μ) 0`, sums all `16384 × 4096` of these and
  divides by `16384`. When every column number is a column of the matrix neither the move nor the fill value is ever
  used, and entry `(p, q)` is the normalise-first arrangement of row `p` at its column number.
-/
import proofs.«411710_j11261404250344_3_alg».proof.Proof.RefRead
import proofs.«411710_j11261404250344_3_alg».proof.Proof.RowLoss
import proofs.«411710_j11261404250344_3_alg».proof.Proof.LibTakeAlong
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

variable (X : (⟨S16384x4096, .f32⟩ : BufTy).Contents (Elt Ideal)) (l : (⟨S16384, .i32⟩ : BufTy).Contents (Elt Ideal))

/-! ## The index maps of the layout stages, at indices written by coordinates -/

theorem idx3 (p : Fin 16384) (u : Fin 1) : idx_main_v3 (ix2 p u) = ix1 p :=
  funext fun a => Fin.ext (by match a with | ⟨0, _⟩ => rfl)
theorem idx4 (p : Fin 16384) (q : Fin 4096) : idx_main_v4 (ix2 p q) = ix2 p (0 : Fin 1) :=
  funext fun a => Fin.ext (by match a with | ⟨0, _⟩ => rfl | ⟨1, _⟩ => rfl)
theorem idx7 (p : Fin 16384) (k : Fin 4096) : idx_main_v7 (ix1 p) k = ix2 p k :=
  funext fun a => Fin.ext (by match a with | ⟨0, _⟩ => rfl | ⟨1, _⟩ => rfl)
theorem idx8 (p : Fin 16384) (u : Fin 1) : idx_main_v8 (ix2 p u) = ix1 p :=
  funext fun a => Fin.ext (by match a with | ⟨0, _⟩ => rfl)
theorem idx9 (p : Fin 16384) (q : Fin 4096) : idx_main_v9 (ix2 p q) = ix2 p (0 : Fin 1) :=
  funext fun a => Fin.ext (by match a with | ⟨0, _⟩ => rfl | ⟨1, _⟩ => rfl)
theorem idx11 (p : Fin 16384) (u : Fin 1) : idx_main_v11 (ix2 p u) = ix1 p :=
  funext fun a => Fin.ext (by match a with | ⟨0, _⟩ => rfl)
theorem idx13 (p : Fin 16384) (q : Fin 4096) : idx_main_v13 (ix2 p q) = ix2 p (0 : Fin 1) :=
  funext fun a => Fin.ext (by match a with | ⟨0, _⟩ => rfl | ⟨1, _⟩ => rfl)

/-- The index a reduction along the second axis reads for row `p` and position `q` is `(p, q)`. -/
theorem lift_row (h : S16384x4096.Reduces [1] S16384) (p : Fin 16384) (q : Fin 4096) : h.lift (ix1 p) q = ix2 p q :=
  funext fun a => Fin.ext (by match a with | ⟨0, _⟩ => rfl | ⟨1, _⟩ => rfl)

/-! ## The softmax of a row -/

/-- Row `p`'s shift: its largest score, as the fold of `max` from the pattern of `-∞`. -/
def shift (p : Fin 16384) : EReal :=
  (Finset.univ : Finset (Fin 4096)).fold max (Ideal.ofBits .f32 0xFF800000#32) (fun q => X (ix2 p q))

/-- Row `p`'s sum of exponentials. -/
def expSum (p : Fin 16384) : EReal := ∑ k : Fin 4096, Ideal.exp (X (ix2 p k) - shift X p)

/-- The row maximum the reference subtracts: the reduction's fold, and taking the larger of it and `-∞` once more
    changes nothing. -/
theorem rowMax_apply (p : Fin 16384) : val_main_v2 (F := Ideal) X (ix1 p) = shift X p := by
  have h0 : val_main_v0 (F := Ideal) X (ix1 p) = shift X p := by
    unfold val_main_v0
    refine (Host.reduce_eq_fold_single (FloatOps.maximumf (F := Ideal) (φ := .f32)) X _
      reducesTo_S16384x4096_S16384_d1 (by decide) h_S_ (ix1 p)).trans ?_
    exact congrArg (Finset.univ.fold max (Ideal.ofBits .f32 0xFF800000#32))
      (funext fun q => congrArg X (lift_row _ p q))
  rw [val_main_v2_apply, h0]
  show max (Ideal.ofBits .f32 0xFF800000#32) (shift X p) = shift X p
  rw [RankLoss.negInf_bits]
  exact max_eq_right bot_le

/-- The exponential at `(p, q)`. -/
theorem exp_apply (p : Fin 16384) (q : Fin 4096) :
    val_main_v6 (F := Ideal) X (ix2 p q) = Ideal.exp (X (ix2 p q) - shift X p) := by
  rw [val_main_v6_apply, val_main_v5_apply, val_main_v4_apply, idx4, val_main_v3_apply, idx3, rowMax_apply]
  rfl

/-- The row sum at `p`: the host's sum starts from the pattern of zero. -/
theorem expSum_apply (p : Fin 16384) : val_main_v7 (F := Ideal) X (ix1 p) = expSum X p := by
  rw [val_main_v7_apply]
  show Ideal.ofBits .f32 0x00000000#32 + _ = _
  rw [Ideal.ofBits_zero_f32, zero_add]
  exact Finset.sum_congr rfl fun k _ => by rw [idx7, exp_apply]

/-- The probability at `(p, q)`. -/
theorem prob_apply (p : Fin 16384) (q : Fin 4096) :
    val_main_v10 (F := Ideal) X (ix2 p q) = Ideal.div (Ideal.exp (X (ix2 p q) - shift X p)) (expSum X p) := by
  rw [val_main_v10_apply, exp_apply, val_main_v9_apply, idx9, val_main_v8_apply, idx8, expSum_apply]
  rfl

/-! ## The distinguished probability -/

/-- The call's result is the lowered `take_along_axis` of the probabilities at the column numbers as a column. -/
theorem taken_eq : val_main_v12 (F := Ideal) X l
    = TakeAlong.lowered bcast_S_S16384x1 shapeCasts_S16384x1_S16384x1x1 bcast_S_S16384x1x1 bcast_S1_S1x1x1_2
        bcast_S1x1x1_S16384x1x1_0_1_2 reducesTo_S16384x1x1_S16384x1_d2 h_S_
        gather_S16384x4096_S16384x1x1_S16384x1_n_1_0_0_1_2_11_wf (val_main_v10 (F := Ideal) X)
        (val_main_v11 (F := Ideal) l) (val_main_call0_v14 (F := Ideal)) := rfl

/-- With every column number a column of the matrix, the distinguished probability of row `p` is the probability at
    row `p` and that column. -/
theorem taken_apply (hl : ∀ i, (l i).toNat < 4096) (p : Fin 16384) (u : Fin 1) :
    val_main_v12 (F := Ideal) X l (ix2 p u) = val_main_v10 (F := Ideal) X (ix2 p ⟨(l (ix1 p)).toNat, hl _⟩) := by
  have hw : ∀ p : Fin 16384, (val_main_v11 (F := Ideal) l (ix2 p (0 : Fin 1))).toNat < 4096 := fun p => by
    rw [val_main_v11_apply, idx11]; exact hl _
  rw [taken_eq, TakeAlong.lowered_apply _ _ _ _ _ _ _ _ _ _ _ hw p u]
  congr 1
  funext a
  apply Fin.ext
  match a with
  | ⟨0, _⟩ => rfl
  | ⟨1, _⟩ =>
    show (val_main_v11 (F := Ideal) l (ix2 p (0 : Fin 1))).toNat = (l (ix1 p)).toNat
    rw [val_main_v11_apply, idx11]

/-! ## One compared entry, and the total -/

/-- Entry `(p, q)` of the clipped differences is the normalise-first arrangement of row `p` at its column. -/
theorem entry_apply (hl : ∀ i, (l i).toNat < 4096) (p : Fin 16384) (q : Fin 4096) :
    val_main_v18 (F := Ideal) X l (ix2 p q)
      = RankLoss.normalisedEntry (shift X p) (expSum X p)
          (Ideal.div (Ideal.exp (X (ix2 p ⟨(l (ix1 p)).toNat, hl _⟩) - shift X p)) (expSum X p))
          (fun q => X (ix2 p q)) q := by
  rw [val_main_v18_apply, val_main_v16_apply, val_main_v14_apply, prob_apply, val_main_v13_apply, idx13,
    taken_apply X l hl, prob_apply, val_main_v15_apply, val_main_cst_2_apply, val_main_v17_apply, val_main_cst_3_apply]
  unfold RankLoss.normalisedEntry RankLoss.margin
  show max _ (Ideal.ofBits .f32 0x00000000#32) = _
  rw [Ideal.ofBits_zero_f32]
  rfl

/-- The result: the double sum of the compared entries, divided by the pattern of `16384`. -/
theorem total_apply (i : S_.Idx) :
    val_main_v20 (F := Ideal) X l i
      = Ideal.div (∑ p : Fin 16384, ∑ q : Fin 4096, val_main_v18 (F := Ideal) X l (ix2 p q))
          (Ideal.ofBits .f32 0x46800000#32) := by
  rw [val_main_v20_apply, val_main_v19_apply, val_main_cst_5_apply, sum_idx2]
  show Ideal.div (Ideal.ofBits .f32 0x00000000#32 + _) _ = _
  rw [Ideal.ofBits_zero_f32, zero_add]
  rfl

end Cert.ReferenceIdeal.RefValue

end
-- ==== Proof.Bridge.lean ====
/-
  The two results are one number.

  The kernel's program ends at the mean of the row losses in the divide-once arrangement, each row shifted by its own
  maximum and taken at the score of the row's (clamped) column; the reference ends at the double sum of the
  normalise-first entries divided by the same `16384`. Under the precondition every score is a real number and every
  column number is a column of the matrix. Then the clamp and the reference's wrap and range test do nothing, both
  programs distinguish the same column, every row maximum is a real number, and row by row the law of the two
  arrangements applies. A sum over all positions of the matrix is the sum over the rows of the sums along the rows,
  and the two results agree.
-/
import proofs.«411710_j11261404250344_3_alg».proof.Proof.KernelHost
import proofs.«411710_j11261404250344_3_alg».proof.Proof.RefValue
import Idealize.ShloMosaic.Lib.ValueIdxRank1

noncomputable section

namespace Cert.Bridge

open Idealize.ShloMosaic Idealize.ShloMosaic.ValueIdx
open Cert.KernelIdeal.ArrayValue Cert.KernelIdeal.HostValue Cert.ReferenceIdeal.RefValue

/-- The mean at its one index: the sum over the `16384` positions, divided by the pattern of `16384`. -/
theorem meanOf_apply (v : FVec Ideal Cert.KernelIdeal.S16384 .f32) (i : Cert.KernelIdeal.S_.Idx) :
    meanOf v i = Ideal.div (∑ p : Fin 16384, v (ix1 p)) (Ideal.ofBits .f32 0x46800000#32) := by
  unfold meanOf
  show Ideal.div (Host.reduceAdd (F := Ideal) v _ Cert.KernelIdeal.Gen.reducesTo_S16384_S_d0 Cert.KernelIdeal.Gen.h_S_ i) _ = _
  simp only [Host.reduceAdd, Ideal.hostReduceAdd_def]
  rw [Ideal.hostReduceAdd_total Cert.KernelIdeal.Gen.reducesTo_S16384_S_d0 (fun b => b.elim0)]
  show Ideal.div (Ideal.ofBits .f32 0x00000000#32 + _) _ = _
  rw [Ideal.ofBits_zero_f32, zero_add, ← Equiv.sum_comp (idxEquiv1 (n := 16384)).symm]
  rfl

/-- ROW BY ROW: the kernel's row loss at row `p` is the sum along row `p` of the reference's compared entries. -/
theorem row_eq (X : FVec Ideal Cert.KernelIdeal.S16384x4096 .f32) (l : IVec Cert.KernelIdeal.S16384 32)
    (hfin : ∀ i, ∃ r : ℝ, X i = (r : EReal)) (hl : ∀ i, (l i).toNat < 4096) (p : Fin 16384) :
    rowLosses X (anchorScores X l) (ix1 p)
      = ∑ q : Fin 4096, Cert.ReferenceIdeal.ReadP.val_main_v18 (F := Ideal) X l (ix2 p q) := by
  show RankLoss.dividedOnce (shift X p) (anchorScores X l (ix1 p)) (fun q : Fin 4096 => X (ix2 p q)) = _
  rw [anchorScores_apply X l hl p]
  refine (RankLoss.law_of_real (fun q : Fin 4096 => X (ix2 p q)) (fun q => hfin _) (shift X p)
    (RankLoss.fold_max_real_of _ (fun q => hfin _) (0 : Fin 4096)) ⟨(l (ix1 p)).toNat, hl _⟩).trans ?_
  exact Finset.sum_congr rfl fun q _ => (entry_apply X l hl p q).symm

/-- THE RESULTS AGREE: the reference's result is the kernel's. -/
theorem result_eq (X : FVec Ideal Cert.KernelIdeal.S16384x4096 .f32) (l : IVec Cert.KernelIdeal.S16384 32)
    (hfin : ∀ i, ∃ r : ℝ, X i = (r : EReal)) (hl : ∀ i, (l i).toNat < 4096) :
    Cert.ReferenceIdeal.ReadP.val_main_v20 (F := Ideal) X l = meanOf (rowLosses X (anchorScores X l)) := by
  funext i
  rw [total_apply, meanOf_apply]
  have hsum : (∑ p : Fin 16384, ∑ q : Fin 4096, Cert.ReferenceIdeal.ReadP.val_main_v18 (F := Ideal) X l (ix2 p q))
      = ∑ p : Fin 16384, rowLosses X (anchorScores X l) (ix1 p) :=
    Finset.sum_congr rfl fun p _ => (row_eq X l hfin hl p).symm
  rw [hsum]

end Cert.Bridge

end
-- ==== Proof.lean ====
/- The certificate of the row-tiled margin ranking loss against its jnp reference.

   THE TWO COMPUTATIONS. For every row of a `[16384, 4096]` matrix of scores and a column number per row, the reference
   takes the row's softmax `e q / S` (with `e q = exp (x q - max x)`, `S = ∑ q, e q`), compares every probability with the
   one at the row's column, `max (e q / S - e l / S + μ) 0` with `μ` the single-precision word nearest one tenth, and
   averages the sum of all these over the `16384` rows. The kernel streams the matrix once in blocks of `512` rows;
   per row it folds the distinguished entry and the margin into one number `c = e l - μ S`, sums `max (e q - c) 0` and
   divides the row's sum by `S` once; the distinguished scores are gathered outside the kernel, at the column numbers
   clamped into `[0, 4095]`; the `16384` row results are summed and divided by `16384` after it.

   WHY THEY AGREE. `S` is a positive real number when the scores are real, so `max a 0 / S = max (a / S) 0` and
   `(e q - (e l - μ S)) / S = e q / S - e l / S + μ`: row by row the two arrangements are one number (Proof/RowLoss.lean),
   and a sum over the matrix is the sum over the rows of the sums along them. This needs the precondition twice: every
   score finite (with an infinite score the division does not distribute), and every column number in `[0, 4096)` —
   there the kernel's clamp, and the reference's wrap of negative numbers and its range test, all do nothing, so both
   distinguish the same column; outside that range the reference wraps or fills where the kernel clamps, and the two
   differ.

   THE MODULES. Proof/RowLoss.lean: the two arrangements and the law. Proof/PreFacts.lean: the precondition read back.
   Proof/LibColumn.lean, Proof/LibTakeAlong.lean, Proof/LibFinite.lean: general lemmas (a kept column read at an
   index; take_along_axis as it lowers, read at an index; the finiteness test). Proof/KernelRow.lean: the kernel's body
   at one row. Proof/KernelArray.lean: from the written blocks to the whole array of row losses. Proof/KernelHost.lean:
   the program around the region, and its run. Proof/RefValue.lean: the reference read stage by stage. Proof/Bridge.lean:
   the two results are one number. The frames are the generated ones; the reference's run and its read-at-an-index
   lemmas are Proof/RefRun.lean and Proof/RefRead.lean. -/
import proofs.«411710_j11261404250344_3_alg».proof.Defs
import proofs.«411710_j11261404250344_3_alg».proof.Proof.Gen.Kernel
import proofs.«411710_j11261404250344_3_alg».proof.Proof.Gen.Kernel.Skeleton
import proofs.«411710_j11261404250344_3_alg».proof.Proof.Gen.Kernel.Launch
import proofs.«411710_j11261404250344_3_alg».proof.Proof.Gen.Kernel.Points
import proofs.«411710_j11261404250344_3_alg».proof.Proof.Gen.Kernel.Frame
import proofs.«411710_j11261404250344_3_alg».proof.Proof.Gen.KernelIdeal
import proofs.«411710_j11261404250344_3_alg».proof.Proof.Gen.KernelIdeal.Skeleton
import proofs.«411710_j11261404250344_3_alg».proof.Proof.Gen.KernelIdeal.Launch
import proofs.«411710_j11261404250344_3_alg».proof.Proof.Gen.KernelIdeal.Points
import proofs.«411710_j11261404250344_3_alg».proof.Proof.Gen.KernelIdeal.Frame
import proofs.«411710_j11261404250344_3_alg».proof.Proof.Gen.ReferenceIdeal
import proofs.«411710_j11261404250344_3_alg».proof.Proof.Gen.Pre_finite_inputs
import proofs.«411710_j11261404250344_3_alg».proof.Proof.PreFacts
import proofs.«411710_j11261404250344_3_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs run, keep their arguments, and end at one number: the
    kernel's at the mean of its row losses, the reference's at its composed term, which under the precondition is the
    same number (Proof/Bridge.lean). -/
theorem algebraic : Cert.algebraic_KernelIdeal_ReferenceIdeal := by
  intro m ρ m' ρ' hpre hagree
  refine ⟨fun c => Cert.KernelIdeal.HostValue.meanOf
      (Cert.KernelIdeal.ArrayValue.rowLosses (m ((c.tc : Thread Cert.KernelIdeal.nD Cert.KernelIdeal.τ).loc Cert.KernelIdeal.main_arg0))
        (Cert.KernelIdeal.HostValue.anchorScores
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))),
    Cert.KernelIdeal.HostValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hfin, hl⟩ := Cert.PreFacts.decode _ _ (hpre c)
  rw [Cert.ReferenceIdeal.ReadP.val_main_v20_eq, (hagree c).1, (hagree c).2]
  exact Cert.Bridge.result_eq _ _ hfin hl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
